-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S_ : Shape := ⟨0, ![]⟩

class Facts : Prop where
  bcast_S_S64x256x3200 : S_.BroadcastsInDim S64x256x3200 (![] : Fin 0 → Fin S64x256x3200.rank)
  reducesTo_S64x256x3200_S_d0_1_2 : S64x256x3200.ReducesTo [0, 1, 2] S_
  h_S_ : 0 < S_.numel
  bcast_S_S64x256x5x3 : S_.BroadcastsInDim S64x256x5x3 (![] : Fin 0 → Fin S64x256x5x3.rank)
  reducesTo_S64x256x5x3_S_d0_1_2_3 : S64x256x5x3.ReducesTo [0, 1, 2, 3] S_
  bcast_S_S20x3x3215 : S_.BroadcastsInDim S20x3x3215 (![] : Fin 0 → Fin S20x3x3215.rank)
  reducesTo_S20x3x3215_S_d0_1_2 : S20x3x3215.ReducesTo [0, 1, 2] S_
  bcast_S_S20x3 : S_.BroadcastsInDim S20x3 (![] : Fin 0 → Fin S20x3.rank)
  reducesTo_S20x3_S_d0_1 : S20x3.ReducesTo [0, 1] S_

variable [Facts]

def fn_part1 {F : FTy → Type} [FloatOps F] (main_v13 : IVec S_ 1) (main_v16 : IVec S20x3 1) : IVec S_ 1 :=
  let main_c_5 : IVec S_ 1 := constantI S_ 1 1#1
  let main_v17 : IVec S_ 1 := (fun x v => Host.reduce IntOp.andi x v reducesTo_S20x3_S_d0_1 h_S_) main_v16 main_c_5
  let main_v18 : IVec S_ 1 := andi main_v13 main_v17
  main_v18

def fn {F : FTy → Type} [FloatOps F] (main_arg0 : FVec F S64x256x3200 .f32) (main_arg1 : FVec F S64x256x5x3 .f32) (main_arg2 : FVec F S20x3x3215 .f32) (main_arg3 : FVec F S20x3 .f32) : IVec S_ 1 :=
  let main_v0 : FVec F S64x256x3200 .f32 := Host.absf main_arg0
  let main_cst : FVec F S_ .f32 := constant S_ .f32 0x7F800000#32
  let main_v1 : FVec F S64x256x3200 .f32 := broadcastInDim S64x256x3200 ![] bcast_S_S64x256x3200 main_cst
  let main_v2 : IVec S64x256x3200 1 := cmpf .olt main_v0 main_v1
  let main_c : IVec S_ 1 := constantI S_ 1 1#1
  let main_v3 : IVec S_ 1 := (fun x v => Host.reduce IntOp.andi x v reducesTo_S64x256x3200_S_d0_1_2 h_S_) main_v2 main_c
  let main_v4 : FVec F S64x256x5x3 .f32 := Host.absf main_arg1
  let main_cst_0 : FVec F S_ .f32 := constant S_ .f32 0x7F800000#32
  let main_v5 : FVec F S64x256x5x3 .f32 := broadcastInDim S64x256x5x3 ![] bcast_S_S64x256x5x3 main_cst_0
  let main_v6 : IVec S64x256x5x3 1 := cmpf .olt main_v4 main_v5
  let main_c_1 : IVec S_ 1 := constantI S_ 1 1#1
  let main_v7 : IVec S_ 1 := (fun x v => Host.reduce IntOp.andi x v reducesTo_S64x256x5x3_S_d0_1_2_3 h_S_) main_v6 main_c_1
  let main_v8 : IVec S_ 1 := andi main_v3 main_v7
  let main_v9 : FVec F S20x3x3215 .f32 := Host.absf main_arg2
  let main_cst_2 : FVec F S_ .f32 := constant S_ .f32 0x7F800000#32
  let main_v10 : FVec F S20x3x3215 .f32 := broadcastInDim S20x3x3215 ![] bcast_S_S20x3x3215 main_cst_2
  let main_v11 : IVec S20x3x3215 1 := cmpf .olt main_v9 main_v10
  let main_c_3 : IVec S_ 1 := constantI S_ 1 1#1
  let main_v12 : IVec S_ 1 := (fun x v => Host.reduce IntOp.andi x v reducesTo_S20x3x3215_S_d0_1_2 h_S_) main_v11 main_c_3
  let main_v13 : IVec S_ 1 := andi main_v8 main_v12
  let main_v14 : FVec F S20x3 .f32 := Host.absf main_arg3
  let main_cst_4 : FVec F S_ .f32 := constant S_ .f32 0x7F800000#32
  let main_v15 : FVec F S20x3 .f32 := broadcastInDim S20x3 ![] bcast_S_S20x3 main_cst_4
  let main_v16 : IVec S20x3 1 := cmpf .olt main_v14 main_v15
  fn_part1 (F := F) main_v13 main_v16
-- ==== Kernel.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S16384x3200 : Shape := ⟨2, ![16384, 3200]⟩
abbrev S16384x15 : Shape := ⟨2, ![16384, 15]⟩
abbrev S3215x3x20 : Shape := ⟨3, ![3215, 3, 20]⟩
abbrev S3215x60 : Shape := ⟨2, ![3215, 60]⟩
abbrev S3200x60 : Shape := ⟨2, ![3200, 60]⟩
abbrev S15x60 : Shape := ⟨2, ![15, 60]⟩
abbrev S_ : Shape := ⟨0, ![]⟩
abbrev S3200x128 : Shape := ⟨2, ![3200, 128]⟩
abbrev S15x128 : Shape := ⟨2, ![15, 128]⟩
abbrev S3x20 : Shape := ⟨2, ![3, 20]⟩
abbrev S1x60 : Shape := ⟨2, ![1, 60]⟩
abbrev S1x128 : Shape := ⟨2, ![1, 128]⟩
abbrev S16384x128 : Shape := ⟨2, ![16384, 128]⟩
abbrev S1024x3200 : Shape := ⟨2, ![1024, 3200]⟩
abbrev S1024x15 : Shape := ⟨2, ![1024, 15]⟩
abbrev S1024x128 : Shape := ⟨2, ![1024, 128]⟩
abbrev S16384x60 : Shape := ⟨2, ![16384, 60]⟩
abbrev S64x256x3x20 : Shape := ⟨4, ![64, 256, 3, 20]⟩

abbrev nBuf : Space → Nat
  | .hbm => 26
  | .vmem => 9
  | .smem => 0
  | _ => 0

abbrev bufTy : (tb : Table) → Fin (tcTables nBuf tb) → BufTy
  | .hbm, ⟨0, _⟩ => ⟨S64x256x3200, .f32⟩
  | .hbm, ⟨1, _⟩ => ⟨S64x256x5x3, .f32⟩
  | .hbm, ⟨2, _⟩ => ⟨S20x3x3215, .f32⟩
  | .hbm, ⟨3, _⟩ => ⟨S20x3, .f32⟩
  | .hbm, ⟨4, _⟩ => ⟨S16384x3200, .f32⟩
  | .hbm, ⟨5, _⟩ => ⟨S16384x15, .f32⟩
  | .hbm, ⟨6, _⟩ => ⟨S3215x3x20, .f32⟩
  | .hbm, ⟨7, _⟩ => ⟨S3215x60, .f32⟩
  | .hbm, ⟨8, _⟩ => ⟨S3200x60, .f32⟩
  | .hbm, ⟨9, _⟩ => ⟨S15x60, .f32⟩
  | .hbm, ⟨10, _⟩ => ⟨S_, .i32⟩
  | .hbm, ⟨11, _⟩ => ⟨S_, .f32⟩
  | .hbm, ⟨12, _⟩ => ⟨S3200x128, .f32⟩
  | .hbm, ⟨13, _⟩ => ⟨S3200x128, .bf16⟩
  | .hbm, ⟨14, _⟩ => ⟨S_, .i32⟩
  | .hbm, ⟨15, _⟩ => ⟨S_, .f32⟩
  | .hbm, ⟨16, _⟩ => ⟨S15x128, .f32⟩
  | .hbm, ⟨17, _⟩ => ⟨S15x128, .bf16⟩
  | .hbm, ⟨18, _⟩ => ⟨S3x20, .f32⟩
  | .hbm, ⟨19, _⟩ => ⟨S1x60, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S16384x128, .f32⟩
  | .hbm, ⟨24, _⟩ => ⟨S16384x60, .f32⟩
  | .hbm, ⟨25, _⟩ => ⟨S64x256x3x20, .f32⟩
  | .local _ .vmem, ⟨0, _⟩ => ⟨S1024x3200, .f32⟩
  | .local _ .vmem, ⟨1, _⟩ => ⟨S1024x3200, .f32⟩
  | .local _ .vmem, ⟨2, _⟩ => ⟨S1024x15, .f32⟩
  | .local _ .vmem, ⟨3, _⟩ => ⟨S1024x15, .f32⟩
  | .local _ .vmem, ⟨4, _⟩ => ⟨S3200x128, .bf16⟩
  | .local _ .vmem, ⟨5, _⟩ => ⟨S15x128, .bf16⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | _, _ => ⟨S64x256x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3200x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256x3200_S16384x3200 : S64x256x3200.ShapeCasts S16384x3200
  shapeCasts_S64x256x5x3_S16384x15 : S64x256x5x3.ShapeCasts S16384x15
  transposes_S20x3x3215_S3215x3x20_2_1_0 : S20x3x3215.Transposes [2, 1, 0] S3215x3x20
  shapeCasts_S3215x3x20_S3215x60 : S3215x3x20.ShapeCasts S3215x60
  slices_S3215x60_S3200x60_0_0 : S3215x60.Slices ![0, 0] S3200x60
  slices_S3215x60_S15x60_3200_0 : S3215x60.Slices ![3200, 0] S15x60
  pads_S3200x60_S3200x128_000_0680 : S3200x60.Pads (![0, 0] : Fin 2 → Nat) ![0, 68] ![0, 0] S3200x128
  h_S_ : 0 < S_.numel
  bitsLt_bf16_f32 : FTy.bits .bf16 < FTy.bits .f32
  pads_S15x60_S15x128_000_0680 : S15x60.Pads (![0, 0] : Fin 2 → Nat) ![0, 68] ![0, 0] S15x128
  transposes_S20x3_S3x20_1_0 : S20x3.Transposes [1, 0] S3x20
  shapeCasts_S3x20_S1x60 : S3x20.ShapeCasts S1x60
  pads_S1x60_S1x128_000_0680 : S1x60.Pads (![0, 0] : Fin 2 → Nat) ![0, 68] ![0, 0] S1x128
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S1024x15_S1024x15_0_0 : ∀ a, (![0, 0] : Fin 2 → Nat) a + S1024x15.size a ≤ S1024x15.size a
  h_S1024x15 : 0 < S1024x15.numel
  shapeCasts_S1024x15_S1024x15 : S1024x15.ShapeCasts S1024x15
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S15x128_S15x128_0_0 : ∀ a, (![0, 0] : Fin 2 → Nat) a + S15x128.size a ≤ S15x128.size a
  h_S15x128 : 0 < S15x128.numel
  shapeCasts_S15x128_S15x128 : S15x128.ShapeCasts S15x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x60_0_0 : S16384x128.Slices ![0, 0] S16384x60
  shapeCasts_S16384x60_S64x256x3x20 : S16384x60.ShapeCasts S64x256x3x20
  dot_S1024x3200_S3200x128_S1024x128_1_0_0_1_n_n_wf : DotDims.WF S1024x3200 S3200x128 S1024x128 [1] [0] [0] [1] [] []
  dot_S1024x15_S15x128_S1024x128_1_0_0_1_n_n_wf : DotDims.WF S1024x15 S15x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3200.size a ≤ S16384x3200.size a
  hwx0_0 : ∀ i : grid0.Coords, EltTy.bits .f32 = 32 ∨ (Rect.block (s := S16384x3200) S1024x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x15.size a ≤ S16384x15.size a
  hwx0_1 : ∀ i : grid0.Coords, EltTy.bits .f32 = 32 ∨ (Rect.block (s := S16384x15) S1024x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S3200x128.size a
  hwx0_2 : ∀ i : grid0.Coords, EltTy.bits .bf16 = 32 ∨ (Rect.block (s := S3200x128) S3200x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x128.size a ≤ S15x128.size a
  hwx0_3 : ∀ i : grid0.Coords, EltTy.bits .bf16 = 32 ∨ (Rect.block (s := S15x128) S15x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)

variable [Facts₀]

def dot_S1024x3200_S3200x128_S1024x128_1_0_0_1_n_n : DotDims S1024x3200 S3200x128 S1024x128 where
  lhsContracting := [1]
  rhsContracting := [0]
  lhsNonContracting := [0]
  rhsNonContracting := [1]
  lhsBatch := []
  rhsBatch := []
  wf := dot_S1024x3200_S3200x128_S1024x128_1_0_0_1_n_n_wf
def dot_S1024x15_S15x128_S1024x128_1_0_0_1_n_n : DotDims S1024x15 S15x128 S1024x128 where
  lhsContracting := [1]
  rhsContracting := [0]
  lhsNonContracting := [0]
  rhsNonContracting := [1]
  lhsBatch := []
  rhsBatch := []
  wf := dot_S1024x15_S15x128_S1024x128_1_0_0_1_n_n_wf

abbrev win0_0 : Pipeline.Window sig grid0 :=
  Pipeline.Window.ofSpec (Memref.whole main_v0) S1024x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3200x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S15x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x3200 : Shape := ⟨3, ![64, 256, 3200]⟩
abbrev S64x256x5x3 : Shape := ⟨4, ![64, 256, 5, 3]⟩
abbrev S20x3x3215 : Shape := ⟨3, ![20, 3, 3215]⟩
abbrev S20x3 : Shape := ⟨2, ![20, 3]⟩
abbrev S64x256x15 : Shape := ⟨3, ![64, 256, 15]⟩
abbrev S64x256x3215 : Shape := ⟨3, ![64, 256, 3215]⟩
abbrev S20x3x64x256 : Shape := ⟨4, ![20, 3, 64, 256]⟩
abbrev S64x256x3x20 : Shape := ⟨4, ![64, 256, 3, 20]⟩
abbrev S3x20 : Shape := ⟨2, ![3, 20]⟩
abbrev S1x1x3x20 : Shape := ⟨4, ![1, 1, 3, 20]⟩

abbrev nBuf : Space → Nat
  | .hbm => 12
  | .vmem => 0
  | .smem => 0
  | _ => 0

abbrev bufTy : (tb : Table) → Fin (tcTables nBuf tb) → BufTy
  | .hbm, ⟨0, _⟩ => ⟨S64x256x3200, .f32⟩
  | .hbm, ⟨1, _⟩ => ⟨S64x256x5x3, .f32⟩
  | .hbm, ⟨2, _⟩ => ⟨S20x3x3215, .f32⟩
  | .hbm, ⟨3, _⟩ => ⟨S20x3, .f32⟩
  | .hbm, ⟨4, _⟩ => ⟨S64x256x15, .f32⟩
  | .hbm, ⟨5, _⟩ => ⟨S64x256x3215, .f32⟩
  | .hbm, ⟨6, _⟩ => ⟨S20x3x64x256, .f32⟩
  | .hbm, ⟨7, _⟩ => ⟨S64x256x3x20, .f32⟩
  | .hbm, ⟨8, _⟩ => ⟨S3x20, .f32⟩
  | .hbm, ⟨9, _⟩ => ⟨S1x1x3x20, .f32⟩
  | .hbm, ⟨10, _⟩ => ⟨S64x256x3x20, .f32⟩
  | .hbm, ⟨11, _⟩ => ⟨S64x256x3x20, .f32⟩
  | _, _ => ⟨S64x256x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S64x256x5x3_S64x256x15 : S64x256x5x3.ShapeCasts S64x256x15
  concatenates_S64x256x3200_S64x256x15_S64x256x3215_d2 : Shape.Concatenates [S64x256x3200, S64x256x15] S64x256x3215 2
  transposes_S20x3x64x256_S64x256x3x20_2_3_1_0 : S20x3x64x256.Transposes [2, 3, 1, 0] S64x256x3x20
  transposes_S20x3_S3x20_1_0 : S20x3.Transposes [1, 0] S3x20
  bcast_S3x20_S1x1x3x20_2_3 : S3x20.BroadcastsInDim S1x1x3x20 (![2, 3] : Fin 2 → Fin S1x1x3x20.rank)
  bcast_S1x1x3x20_S64x256x3x20_0_1_2_3 : S1x1x3x20.BroadcastsInDim S64x256x3x20 (![0, 1, 2, 3] : Fin 4 → Fin S64x256x3x20.rank)
  dot_S20x3x3215_S64x256x3215_S20x3x64x256_2_2_01_01_n_n_wf : DotDims.WF S20x3x3215 S64x256x3215 S20x3x64x256 [2] [2] [0, 1] [0, 1] [] []

variable [Facts₀]

def dot_S20x3x3215_S64x256x3215_S20x3x64x256_2_2_01_01_n_n : DotDims S20x3x3215 S64x256x3215 S20x3x64x256 where
  lhsContracting := [2]
  rhsContracting := [2]
  lhsNonContracting := [0, 1]
  rhsNonContracting := [0, 1]
  lhsBatch := []
  rhsBatch := []
  wf := dot_S20x3x3215_S64x256x3215_S20x3x64x256_2_2_01_01_n_n_wf

class Facts : Prop extends Facts₀ where

variable [Facts]
-- ==== Proof.Spec.lean ====
/-
  The function both programs compute, and the one law of sums that joins their two arrangements.

  Twenty small linear layers, each from 3215 features to 3 outputs, are applied to every one of the
  64 x 256 positions.  A position's 3215 features are its 3200 entries of `x` followed by its 5 x 3
  block of `seeds` read row by row (seed feature `s` is entry `(s / 3, s % 3)` of the block).
  Layer `k`, output `o`, at position `(n, t)`:

      out[n, t, o, k] = (sum over c < 3200 of x[n, t, c] * W[k, o, c])
                        + (sum over s < 15 of seeds[n, t, s / 3, s % 3] * W[k, o, 3200 + s])
                        + b[k, o].

  One program sums the 3215 products in one run, the other in the two runs above; over the extended
  reals addition is commutative and associative (no subtraction, no cancelling, no distribution is
  used), so a sum over `Fin 3215` is the sum over its first 3200 indices plus the sum over its
  last 15, whatever the terms are — finite or not.
-/
import Idealize.ShloMosaic.PureOps.Ideal
import Idealize.ShloMosaic.Lib.ValueIdx
import Mathlib.Algebra.BigOperators.Fin

noncomputable section

open scoped BigOperators

namespace Cert.NodeLinear

open Idealize.ShloMosaic Idealize.ShloMosaic.ValueIdx

/-- The shapes of the four arguments and of the result. -/
abbrev SX : Shape := ⟨3, ![64, 256, 3200]⟩
abbrev SSeed : Shape := ⟨4, ![64, 256, 5, 3]⟩
abbrev SW : Shape := ⟨3, ![20, 3, 3215]⟩
abbrev SB : Shape := ⟨2, ![20, 3]⟩
abbrev SOut : Shape := ⟨4, ![64, 256, 3, 20]⟩

/-- Feature `c` of `x` is feature `c` of the 3215. -/
abbrev colX (c : Fin 3200) : Fin 3215 := ⟨c.val, by have := c.isLt; omega⟩
/-- Seed feature `s` is feature `3200 + s` of the 3215. -/
abbrev colS (s : Fin 15) : Fin 3215 := ⟨3200 + s.val, by have := s.isLt; omega⟩
/-- Seed feature `s` sits in row `s / 3` of the position's 5 x 3 block, -/
abbrev seedRow (s : Fin 15) : Fin 5 := ⟨s.val / 3, by have := s.isLt; omega⟩
/-- at column `s % 3`. -/
abbrev seedCol (s : Fin 15) : Fin 3 := ⟨s.val % 3, by have := s.isLt; omega⟩

/-- Position `(n, t)` is row `256 n + t` of the arrays flattened over positions. -/
abbrev flatRow (n : Fin 64) (t : Fin 256) : Fin 16384 := ⟨n.val * 256 + t.val, by have := n.isLt; have := t.isLt; omega⟩
/-- Output `o` of layer `k` is column `20 o + k` of the 60 flattened output columns, -/
abbrev flatLane (o : Fin 3) (k : Fin 20) : Fin 60 := ⟨o.val * 20 + k.val, by have := o.isLt; have := k.isLt; omega⟩
/-- and the same column of the 128 columns they are padded to. -/
abbrev padLane (o : Fin 3) (k : Fin 20) : Fin 128 := ⟨o.val * 20 + k.val, by have := o.isLt; have := k.isLt; omega⟩

/-- The stacked linear layers at one position, one output and one layer. -/
def lin (x : SX.Idx → EReal) (sd : SSeed.Idx → EReal) (W : SW.Idx → EReal) (b : SB.Idx → EReal)
    (n : Fin 64) (t : Fin 256) (o : Fin 3) (k : Fin 20) : EReal :=
  (∑ c : Fin 3200, x (ix3 n t c) * W (ix3 k o (colX c)))
    + (∑ s : Fin 15, sd (ix4 n t (seedRow s) (seedCol s)) * W (ix3 k o (colS s)))
    + b (ix2 k o)

/-- The whole result array. -/
def linOut (x : SX.Idx → EReal) (sd : SSeed.Idx → EReal) (W : SW.Idx → EReal) (b : SB.Idx → EReal) :
    SOut.Idx → EReal := fun i => lin x sd W b (i 0) (i 1) (i 2) (i 3)

theorem linOut_ix4 (x : SX.Idx → EReal) (sd : SSeed.Idx → EReal) (W : SW.Idx → EReal) (b : SB.Idx → EReal)
    (n : Fin 64) (t : Fin 256) (o : Fin 3) (k : Fin 20) :
    linOut x sd W b (ix4 n t o k) = lin x sd W b n t o k := rfl

/-- A sum over the 3215 features is the sum over the 3200 features of `x` plus the sum over the 15
    seed features: additions regrouped, nothing else. -/
theorem sum_features (f : Fin 3215 → EReal) :
    ∑ c : Fin 3215, f c = (∑ c : Fin 3200, f (colX c)) + ∑ s : Fin 15, f (colS s) := by
  exact Fin.sum_univ_add (M := EReal) (a := 3200) (b := 15) f

end Cert.NodeLinear

end
-- ==== Proof.RefValue.lean ====
/-
  The reference, read at an index, is the stacked linear layers of `Spec.lean`.

  The reference joins `x` and the flattened `seeds` along the feature axis, contracts the joined
  features with `W` in one product (left operand `W`, right operand the joined array), moves the
  axes to `[n, t, o, k]` and adds `b` transposed and broadcast.  At `[n, t, o, k]` that is
      (sum over c < 3215 of W[k, o, c] * joined[n, t, c]) + b[k, o],
  where `joined[n, t, c]` is `x[n, t, c]` below 3200 and the seed feature `c - 3200` from there
  on.  Splitting the sum at 3200 and swapping the two factors of each product gives `lin`.
-/
import proofs.«124400_j25262997635872_1_alg».proof.Proof.Gen.ReferenceIdeal.Run
import proofs.«124400_j25262997635872_1_alg».proof.Proof.Gen.ReferenceIdeal.Read
import proofs.«124400_j25262997635872_1_alg».proof.Proof.Spec

noncomputable section

open scoped BigOperators

namespace Cert.NodeLinear.Ref

open Idealize.ShloMosaic Idealize.ShloMosaic.ValueIdx Cert.ReferenceIdeal Cert.ReferenceIdeal.Read Cert.NodeLinear

variable (x0 : SX.Idx → EReal) (x1 : SSeed.Idx → EReal) (x2 : SW.Idx → EReal) (x3 : SB.Idx → EReal)

/-- Below 3200 the joined features are those of `x`. -/
theorem joined_x (n : Fin 64) (t : Fin 256) (c : Fin 3200) :
    val_main_v1 (F := Ideal) x0 x1 (ix3 n t (colX c)) = x0 (ix3 n t c) := by
  unfold val_main_v1
  refine concatenate_pair_apply_left (2 : Fin 3) x0 (val_main_v0 (F := Ideal) x1)
    Facts₀.concatenates_S64x256x3200_S64x256x15_S64x256x3215_d2 (ix3 n t (colX c)) rfl (ix3 n t c) ?_
  intro b
  match b with
  | ⟨0, _⟩ => rfl
  | ⟨1, _⟩ => rfl
  | ⟨2, _⟩ => rfl

/-- Seed feature `s` of a position, in the flattened `[64, 256, 15]` view, is entry `(s / 3, s % 3)` of its block. -/
theorem flat_seed (n : Fin 64) (t : Fin 256) (s : Fin 15) :
    val_main_v0 (F := Ideal) x1 (ix3 n t s) = x1 (ix4 n t (seedRow s) (seedCol s)) := by
  rw [val_main_v0_apply]
  refine congrArg x1 (funext fun a => Fin.ext ?_)
  have hn := n.isLt; have ht := t.isLt; have hs := s.isLt
  match a with
  | ⟨0, _⟩ => show ((n.val * 256 + t.val) * 15 + s.val) / 3840 = n.val; omega
  | ⟨1, _⟩ => show ((n.val * 256 + t.val) * 15 + s.val) / 15 % 256 = t.val; omega
  | ⟨2, _⟩ => show ((n.val * 256 + t.val) * 15 + s.val) / 3 % 5 = s.val / 3; omega
  | ⟨3, _⟩ => show ((n.val * 256 + t.val) * 15 + s.val) % 3 = s.val % 3; omega

/-- From 3200 on the joined features are the seed features. -/
theorem joined_seed (n : Fin 64) (t : Fin 256) (s : Fin 15) :
    val_main_v1 (F := Ideal) x0 x1 (ix3 n t (colS s)) = x1 (ix4 n t (seedRow s) (seedCol s)) := by
  unfold val_main_v1
  refine (concatenate_pair_apply_right (2 : Fin 3) x0 (val_main_v0 (F := Ideal) x1)
    Facts₀.concatenates_S64x256x3200_S64x256x15_S64x256x3215_d2 (ix3 n t (colS s)) rfl rfl (ix3 n t s) ?_ ?_).trans
    (flat_seed x1 n t s)
  · intro b hb
    match b with
    | ⟨0, _⟩ => rfl
    | ⟨1, _⟩ => rfl
    | ⟨2, _⟩ => exact absurd rfl hb
  · show s.val + 3200 = 3200 + s.val
    omega

/-- The reference's result at `[n, t, o, k]`. -/
theorem val_eq_lin (n : Fin 64) (t : Fin 256) (o : Fin 3) (k : Fin 20) :
    val_main_v7 (F := Ideal) x0 x1 x2 x3 (ix4 n t o k) = lin x0 x1 x2 x3 n t o k := by
  rw [val_main_v7_apply, val_main_v3_apply, val_main_v2_apply, val_main_v6_apply, val_main_v5_apply, val_main_v4_apply]
  have hl : ∀ c : Fin 3215, lidx_main_v2 (idx_main_v3 (ix4 n t o k)) c = ix3 k o c := fun c =>
    funext fun a => Fin.ext (by match a with | ⟨0, _⟩ => rfl | ⟨1, _⟩ => rfl | ⟨2, _⟩ => rfl)
  have hr : ∀ c : Fin 3215, ridx_main_v2 (idx_main_v3 (ix4 n t o k)) c = ix3 n t c := fun c =>
    funext fun a => Fin.ext (by match a with | ⟨0, _⟩ => rfl | ⟨1, _⟩ => rfl | ⟨2, _⟩ => rfl)
  have hb : idx_main_v4 (idx_main_v5 (idx_main_v6 (ix4 n t o k))) = ix2 k o :=
    funext fun a => Fin.ext (by match a with | ⟨0, _⟩ => rfl | ⟨1, _⟩ => rfl)
  simp only [hl, hr, hb]
  show (∑ c : Fin 3215, x2 (ix3 k o c) * val_main_v1 (F := Ideal) x0 x1 (ix3 n t c)) + x3 (ix2 k o) = _
  unfold lin
  rw [sum_features]
  congr 2
  · exact Finset.sum_congr rfl fun c _ => by rw [joined_x, mul_comm]
  · exact Finset.sum_congr rfl fun s _ => by rw [joined_seed, mul_comm]

/-- The reference's whole result array. -/
theorem val_eq_linOut : val_main_v7 (F := Ideal) x0 x1 x2 x3 = linOut x0 x1 x2 x3 := by
  funext i
  rw [eq_ix4 i]
  exact val_eq_lin x0 x1 x2 x3 _ _ _ _

end Cert.NodeLinear.Ref

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Payload.lean ====
/-
  What one grid point computes, entry by entry.

  At a grid point the body holds a block of 1024 rows of the flattened `x` (`[1024, 3200]`), the same
  rows of the flattened seeds (`[1024, 15]`), the whole padded weight matrices (`[3200, 128]` and
  `[15, 128]`) and the padded bias row (`[1, 128]`).  It multiplies rows by weights in two products,
  each accumulated into zero, adds the two, and adds the bias row to every row.  The narrowing of the
  operands to a 16-bit format changes nothing over the extended reals.  So entry `(p, q)` of what it
  stores is
      (sum over c < 3200 of xs[p, c] * wx[c, q]) + (sum over s < 15 of ss[p, s] * ws[s, q]) + bias[0, q].
-/
import proofs.«124400_j25262997635872_1_alg».proof.Proof.Gen.KernelIdeal.Skeleton
import proofs.«124400_j25262997635872_1_alg».proof.Proof.LibDot2
import Idealize.ShloMosaic.Lib.Pipeline.Value
import Idealize.ShloMosaic.Lib.ValueLayout

noncomputable section

open scoped BigOperators

namespace Cert.NodeLinear.Body

open Idealize.ShloMosaic Idealize.ShloMosaic.ValueIdx Cert.KernelIdeal Cert.KernelIdeal.Gen

/-- The product of the row block by the first weight matrix, accumulated into zero, at `(p, q)`. -/
theorem rows_times_wx (xs : Vec Ideal S1024x3200 .f32) (wx : Vec Ideal S3200x128 .bf16) (p : Fin 1024) (q : Fin 128) :
    matmul (F := Ideal) (φ₁ := .bf16) (φ₂ := .bf16) dot_S1024x3200_S3200x128_S1024x128_1_0_0_1_n_n none
        (truncf .bf16 (shapeCast S1024x3200 xs shapeCasts_S1024x3200_S1024x3200) bitsLt_bf16_f32)
        (shapeCast S3200x128 wx shapeCasts_S3200x128_S3200x128)
        (constant S1024x128 .f32 0x00000000#32) (ix2 p q)
      = ∑ c : Fin 3200, xs (ix2 p c) * wx (ix2 c q) := by
  rw [shapeCast_self, shapeCast_self]
  exact Dot2.matmul_zero_mm_apply dot_S1024x3200_S3200x128_S1024x128_1_0_0_1_n_n_wf none
    (truncf (F := Ideal) .bf16 xs bitsLt_bf16_f32) wx p q

/-- The product of the seed block by the second weight matrix, accumulated into zero, at `(p, q)`. -/
theorem seeds_times_ws (ss : Vec Ideal S1024x15 .f32) (ws : Vec Ideal S15x128 .bf16) (p : Fin 1024) (q : Fin 128) :
    matmul (F := Ideal) (φ₁ := .bf16) (φ₂ := .bf16) dot_S1024x15_S15x128_S1024x128_1_0_0_1_n_n none
        (truncf .bf16 (shapeCast S1024x15 ss shapeCasts_S1024x15_S1024x15) bitsLt_bf16_f32)
        (shapeCast S15x128 ws shapeCasts_S15x128_S15x128)
        (constant S1024x128 .f32 0x00000000#32) (ix2 p q)
      = ∑ s : Fin 15, ss (ix2 p s) * ws (ix2 s q) := by
  rw [shapeCast_self, shapeCast_self]
  exact Dot2.matmul_zero_mm_apply dot_S1024x15_S15x128_S1024x128_1_0_0_1_n_n_wf none
    (truncf (F := Ideal) .bf16 ss bitsLt_bf16_f32) ws p q

/-- The bias row repeated over the 1024 rows, at `(p, q)`. -/
theorem bias_row (bias : Vec Ideal S1x128 .f32) (p : Fin 1024) (q : Fin 128) :
    broadcastTo S1024x128 (shapeCast S1x128 bias shapeCasts_S1x128_S1x128) broadcasts_S1x128_S1024x128 (ix2 p q)
      = bias (ix2 (0 : Fin 1) q) := by
  rw [shapeCast_self]
  exact broadcastTo_1b_ab_apply bias broadcasts_S1x128_S1024x128 p q

/-- Entry `(p, q)` of what the body stores. -/
theorem pay_apply (xs : Vec Ideal S1024x3200 .f32) (ss : Vec Ideal S1024x15 .f32) (wx : Vec Ideal S3200x128 .bf16)
    (ws : Vec Ideal S15x128 .bf16) (bias : Vec Ideal S1x128 .f32) (p : Fin 1024) (q : Fin 128) :
    k0_pay1 (F := Ideal) xs ss wx ws bias (ix2 p q)
      = (∑ c : Fin 3200, xs (ix2 p c) * wx (ix2 c q)) + (∑ s : Fin 15, ss (ix2 p s) * ws (ix2 s q))
        + bias (ix2 (0 : Fin 1) q) :=
  congrArg₂ (· + ·) (congrArg₂ (· + ·) (rows_times_wx xs wx p q) (seeds_times_ws ss ws p q)) (bias_row bias p q)

end Cert.NodeLinear.Body

end
-- ==== Proof.Region.lean ====
/-
  What the grid leaves in the region's output array.

  The region's five input arrays are the flattened `x` (`[16384, 3200]`), the flattened seeds
  (`[16384, 15]`), the two padded weight matrices and the padded bias row.  The grid has 16 points; point
  `t` is handed rows `1024 t .. 1024 t + 1023` of the first two arrays and the other three whole, and writes
  rows `1024 t .. 1024 t + 1023` of the `[16384, 128]` output.  Row `1024 t + p` of the output is row `p`
  of what point `t` stores, so every row `r` of the output ends as
      out[r, q] = (sum over c < 3200 of xs[r, c] * wx[c, q]) + (sum over s < 15 of ss[r, s] * ws[s, q]) + bias[0, q],
  and the sixteen row blocks tile the array: row `r` is written by point `r / 1024`.
-/
import proofs.«124400_j25262997635872_1_alg».proof.Proof.Gen.KernelIdeal.Frame
import proofs.«124400_j25262997635872_1_alg».proof.Proof.Payload
import proofs.«124400_j25262997635872_1_alg».proof.Proof.Spec
import Idealize.ShloMosaic.Lib.Pipeline.Value

set_option maxRecDepth 16384

noncomputable section

open scoped BigOperators

namespace Cert.NodeLinear.Region

open Idealize.ShloMosaic Idealize.ShloMosaic.TcCoe Idealize.ShloMosaic.ValueIdx Idealize.SL.Sem
open Cert.KernelIdeal Cert.KernelIdeal.Gen Cert.NodeLinear
open Idealize.ShloMosaic.Pipeline (Dat Cfg Window)

/-- The output array of the region as one function of its five input arrays. -/
def regionOut (xs : S16384x3200.Idx → EReal) (ss : S16384x15.Idx → EReal) (wx : S3200x128.Idx → EReal)
    (ws : S15x128.Idx → EReal) (bias : S1x128.Idx → EReal) : S16384x128.Idx → EReal := fun i =>
  (∑ c : Fin 3200, xs (ix2 (i 0) c) * wx (ix2 c (i 1))) + (∑ s : Fin 15, ss (ix2 (i 0) s) * ws (ix2 s (i 1)))
    + bias (ix2 (0 : Fin 1) (i 1))

/-- When the five arrays are the flattened and padded arguments — row `256 n + t` of `xs` and `ss` the features of
    position `(n, t)`, column `20 o + k` of `wx`, `ws` and `bias` the weights and bias of output `o` of layer `k` —
    the output function at that row and column is the stacked linear layers at `(n, t, o, k)`, term by term. -/
theorem regionOut_lin (xs : S16384x3200.Idx → EReal) (ss : S16384x15.Idx → EReal) (wx : S3200x128.Idx → EReal)
    (ws : S15x128.Idx → EReal) (bias : S1x128.Idx → EReal)
    (x : SX.Idx → EReal) (sd : SSeed.Idx → EReal) (W : SW.Idx → EReal) (b : SB.Idx → EReal)
    (n : Fin 64) (t : Fin 256) (o : Fin 3) (k : Fin 20)
    (hxs : ∀ f : Fin 3200, xs (ix2 (flatRow n t) f) = x (ix3 n t f))
    (hss : ∀ s : Fin 15, ss (ix2 (flatRow n t) s) = sd (ix4 n t (seedRow s) (seedCol s)))
    (hwx : ∀ f : Fin 3200, wx (ix2 f (padLane o k)) = W (ix3 k o (colX f)))
    (hws : ∀ s : Fin 15, ws (ix2 s (padLane o k)) = W (ix3 k o (colS s)))
    (hb : bias (ix2 (0 : Fin 1) (padLane o k)) = b (ix2 k o)) :
    regionOut xs ss wx ws bias (ix2 (flatRow n t) (padLane o k)) = lin x sd W b n t o k := by
  show (∑ f : Fin 3200, xs (ix2 (flatRow n t) f) * wx (ix2 f (padLane o k)))
      + (∑ s : Fin 15, ss (ix2 (flatRow n t) s) * ws (ix2 s (padLane o k))) + bias (ix2 (0 : Fin 1) (padLane o k)) = _
  unfold lin
  rw [hb]
  congr 2
  · exact Finset.sum_congr rfl fun f _ => by rw [hxs, hwx]
  · exact Finset.sum_congr rfl fun s _ => by rw [hss, hws]

/-- A point whose row blocks start `tt` blocks down stores, at `j`, the output function at the index `k`
    that is `j` moved `1024 tt` rows down. -/
theorem pay_block (xs : S16384x3200.Idx → EReal) (ss : S16384x15.Idx → EReal) (wx : S3200x128.Idx → EReal)
    (ws : S15x128.Idx → EReal) (bias : S1x128.Idx → EReal)
    (x0 : Vec Ideal S1024x3200 .f32) (x1 : Vec Ideal S1024x15 .f32) (x2 : Vec Ideal S3200x128 .bf16)
    (x3 : Vec Ideal S15x128 .bf16) (x4 : Vec Ideal S1x128 .f32) (tt : Nat)
    (h0 : ∀ (y : S1024x3200.Idx) (z : S16384x3200.Idx), (z 0).val = tt * 1024 + (y 0).val → (z 1).val = (y 1).val → x0 y = xs z)
    (h1 : ∀ (y : S1024x15.Idx) (z : S16384x15.Idx), (z 0).val = tt * 1024 + (y 0).val → (z 1).val = (y 1).val → x1 y = ss z)
    (h2 : x2 = wx) (h3 : x3 = ws) (h4 : x4 = bias)
    (j : S1024x128.Idx) (k : S16384x128.Idx) (hk0 : (k 0).val = tt * 1024 + (j 0).val) (hk1 : (k 1).val = (j 1).val) :
    k0_pay1 (F := Ideal) x0 x1 x2 x3 x4 j = regionOut xs ss wx ws bias k := by
  subst h2 h3 h4
  obtain ⟨p, q, rfl⟩ : ∃ (p : Fin 1024) (q : Fin 128), j = ix2 p q := ⟨j 0, j 1, eq_ix2 j⟩
  rw [Body.pay_apply]
  unfold regionOut
  have hq : k 1 = q := Fin.ext hk1
  rw [hq]
  congr 2
  · exact Finset.sum_congr rfl fun c _ => by rw [h0 (ix2 p c) (ix2 (k 0) c) hk0 rfl]
  · exact Finset.sum_congr rfl fun s _ => by rw [h1 (ix2 p s) (ix2 (k 0) s) hk0 rfl]

variable (m : (ℓ : Loc nD τ sig) → Buf (Elt Ideal) ℓ)

theorem zero_offsets : (![0, 0] : Fin 2 → Nat) = fun _ => 0 := funext fun a => by fin_cases a <;> rfl

/-- The block index maps over the grid: the row-blocked windows are at block row `t`, the whole windows at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem index_onto : ∀ q0 : Fin 16, ∃ t : Fin cfg0.N, win0_5.index t = ![q0.val, 0] :=
  (by decide +kernel : ∀ q0 : Fin 16, ∃ t : Fin grid0.N, win0_5.index t = ![q0.val, 0])

/-- What point `t` writes back is block `t` of the output function of the five arrays as the region finds them. -/
theorem flushed_eq (c : Dev nD) (t : Fin cfg0.N) :
    (dats m 0 c).flushed 5 t = ((cfg0.win 5).blk t).view.read (Elt Ideal)
      (regionOut (V m c main_v0) (V m c main_v1) (V m c main_v7) (V m c main_v9) (V m c main_v12)) := by
  show (cfg0.win 5).cut (grid0.coords t) ((dats m 0 c).after 5 t) = _
  rw [after0_5]
  unfold out0_5
  rw [View.canon_unit_zero zero_offsets]
  simp only [View.ld_unit_zero (S := S1024x3200) zero_offsets, View.ld_unit_zero (S := S1024x15) zero_offsets,
    View.ld_unit_zero (S := S3200x128) zero_offsets, View.ld_unit_zero (S := S15x128) zero_offsets,
    View.ld_unit_zero (S := S1x128) zero_offsets]
  obtain ⟨e00, e01, e10, e11, e20, e21, e30, e31, e40, e41, e50, e51⟩ := index_facts t
  funext j
  show k0_pay1 (F := Ideal) (iblk m c 0 t) (iblk m c 1 t) (iblk m c 2 t) (iblk m c 3 t) (iblk m c 4 t) j
    = regionOut (V m c main_v0) (V m c main_v1) (V m c main_v7) (V m c main_v9) (V m c main_v12) (((cfg0.win 5).blk t).view.emb j)
  refine pay_block (V m c main_v0) (V m c main_v1) (V m c main_v7) (V m c main_v9) (V m c main_v12)
    (iblk m c 0 t) (iblk m c 1 t) (iblk m c 2 t) (iblk m c 3 t) (iblk m c 4 t) t.val ?_ ?_ ?_ ?_ ?_ j
    (((cfg0.win 5).blk t).view.emb j) ?_ ?_
  · intro y z hz0 hz1
    show V m c main_v0 (((cfg0.win 0).blk t).view.emb y) = V m c main_v0 z
    refine congrArg _ (funext fun a => Fin.ext ?_)
    match a with
    | ⟨0, _⟩ => show win0_0.index t (0 : Fin 2) * 1024 + 1 * (y 0).val = (z 0).val; omega
    | ⟨1, _⟩ => show win0_0.index t (1 : Fin 2) * 3200 + 1 * (y 1).val = (z 1).val; omega
  · intro y z hz0 hz1
    show V m c main_v1 (((cfg0.win 1).blk t).view.emb y) = V m c main_v1 z
    refine congrArg _ (funext fun a => Fin.ext ?_)
    match a with
    | ⟨0, _⟩ => show win0_1.index t (0 : Fin 2) * 1024 + 1 * (y 0).val = (z 0).val; omega
    | ⟨1, _⟩ => show win0_1.index t (1 : Fin 2) * 15 + 1 * (y 1).val = (z 1).val; omega
  · funext y
    show V m c main_v7 (((cfg0.win 2).blk t).view.emb y) = V m c main_v7 y
    refine congrArg _ (funext fun a => Fin.ext ?_)
    match a with
    | ⟨0, _⟩ => show win0_2.index t (0 : Fin 2) * 3200 + 1 * (y 0).val = (y 0).val; omega
    | ⟨1, _⟩ => show win0_2.index t (1 : Fin 2) * 128 + 1 * (y 1).val = (y 1).val; omega
  · funext y
    show V m c main_v9 (((cfg0.win 3).blk t).view.emb y) = V m c main_v9 y
    refine congrArg _ (funext fun a => Fin.ext ?_)
    match a with
    | ⟨0, _⟩ => show win0_3.index t (0 : Fin 2) * 15 + 1 * (y 0).val = (y 0).val; omega
    | ⟨1, _⟩ => show win0_3.index t (1 : Fin 2) * 128 + 1 * (y 1).val = (y 1).val; omega
  · funext y
    show V m c main_v12 (((cfg0.win 4).blk t).view.emb y) = V m c main_v12 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (0 : Fin 2) * 1024 + 1 * (j 0).val = t.val * 1024 + (j 0).val; omega
  · show win0_5.index t (1 : Fin 2) * 128 + 1 * (j 1).val = (j 1).val; omega

/-- An index of the output array is in point `t`'s block iff each coordinate is in the block's range on its axis. -/
theorem mem_blk (t : Fin cfg0.N) (i : S16384x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v13).slice (win0_5.rect t)).set ↔ _
  rw [View.set_slice_whole, Rect.mem_set_unit]
  exact Iff.rfl

/-- Row `r` of the output is written back by point `r / 1024`: the sixteen blocks cover the array. -/
theorem covered (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ := index_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The region's output array after the run. -/
theorem final (c : Dev nD) : (dats m 0 c).arrAt 5 cfg0.N
    = regionOut (V m c main_v0) (V m c main_v1) (V m c main_v7) (V m c main_v9) (V m c main_v12) :=
  (dats m 0 c).arrAt_eq_of_cover 5 _ (fun t _ => flushed_eq m c t) covered

end Cert.NodeLinear.Region

end
-- ==== Proof.Staged.lean ====
/-
  The five arrays the region is launched on, entry by entry, in terms of the program's arguments.

  Before the region the program flattens `x` and `seeds` over positions, turns `W` to
  `[3215, 3, 20]`, flattens its last two axes to 60 columns (column `20 o + k` is output `o` of layer
  `k`), cuts it at feature 3200 into the weights of `x` and the weights of the seeds, and pads both and
  the flattened transposed bias from 60 to 128 columns.  The padding columns are never read below, so
  only columns under 60 are described:
      xs[256 n + t, c]   = x[n, t, c]                 ss[256 n + t, s] = seeds[n, t, s / 3, s % 3]
      wx[c, 20 o + k]    = W[k, o, c]                 ws[s, 20 o + k]  = W[k, o, 3200 + s]
      bias[0, 20 o + k]  = b[k, o].
  The narrowing of the padded weights to a 16-bit format is the identity over the extended reals.
-/
import proofs.«124400_j25262997635872_1_alg».proof.Proof.Gen.KernelIdeal.Frame
import proofs.«124400_j25262997635872_1_alg».proof.Proof.Spec
import Idealize.ShloMosaic.Lib.StableHlo.Run
import Idealize.ShloMosaic.Lib.Pipeline.Value
import Idealize.ShloMosaic.Lib.KernelVsHost

noncomputable section

namespace Cert.NodeLinear.Staged

open Idealize.ShloMosaic Idealize.ShloMosaic.TcCoe Idealize.ShloMosaic.ValueIdx Idealize.SL.Sem Idealize.ShloMosaic.StableHlo
open Cert.KernelIdeal Cert.KernelIdeal.Gen Cert.NodeLinear

variable (m : (ℓ : Loc nD τ sig) → Buf (Elt Ideal) ℓ)

/-! ## The arrays as terms of the arguments -/

theorem xs_eq (c : Dev nD) : (V m c main_v0 : S16384x3200.Idx → EReal)
    = shapeCast S16384x3200 (m ((c : Thread nD τ).loc main_arg0)) shapeCasts_S64x256x3200_S16384x3200 := by
  dsimp only [V, V0]
  simp only [hostOps0, hostOps0_1, hostOps0_2, hostOps0_3, hostOps0_4, hostOps0_5, List.flatten_cons, List.flatten_nil,
    List.append_nil, List.cons_append, List.nil_append]
  after_results; rfl

theorem ss_eq (c : Dev nD) : (V m c main_v1 : S16384x15.Idx → EReal)
    = shapeCast S16384x15 (m ((c : Thread nD τ).loc main_arg1)) shapeCasts_S64x256x5x3_S16384x15 := by
  dsimp only [V, V0]
  simp only [hostOps0, hostOps0_1, hostOps0_2, hostOps0_3, hostOps0_4, hostOps0_5, List.flatten_cons, List.flatten_nil,
    List.append_nil, List.cons_append, List.nil_append]
  after_results; rfl

/-- `W` turned to `[3215, 3, 20]` and flattened to `[3215, 60]`. -/
def wflat (W : S20x3x3215.Idx → EReal) : S3215x60.Idx → EReal :=
  shapeCast S3215x60 (transpose S3215x3x20 [2, 1, 0] W transposes_S20x3x3215_S3215x3x20_2_1_0) shapeCasts_S3215x3x20_S3215x60

theorem wx_eq (c : Dev nD) : (V m c main_v7 : S3200x128.Idx → EReal)
    = truncf (F := Ideal) .bf16 (pad S3200x128 ![0, 0] ![0, 68] ![0, 0]
        (extractStridedSlice S3200x60 ![0, 0] (wflat (m ((c : Thread nD τ).loc main_arg2))) slices_S3215x60_S3200x60_0_0)
        (sitofp (F := Ideal) .f32 (constantI S_ 32 0#32)) pads_S3200x60_S3200x128_000_0680 h_S_) bitsLt_bf16_f32 := by
  dsimp only [V, V0]
  simp only [hostOps0, hostOps0_1, hostOps0_2, hostOps0_3, hostOps0_4, hostOps0_5, List.flatten_cons, List.flatten_nil,
    List.append_nil, List.cons_append, List.nil_append]
  after_results; rfl

theorem ws_eq (c : Dev nD) : (V m c main_v9 : S15x128.Idx → EReal)
    = truncf (F := Ideal) .bf16 (pad S15x128 ![0, 0] ![0, 68] ![0, 0]
        (extractStridedSlice S15x60 ![3200, 0] (wflat (m ((c : Thread nD τ).loc main_arg2))) slices_S3215x60_S15x60_3200_0)
        (sitofp (F := Ideal) .f32 (constantI S_ 32 0#32)) pads_S15x60_S15x128_000_0680 h_S_) bitsLt_bf16_f32 := by
  dsimp only [V, V0]
  simp only [hostOps0, hostOps0_1, hostOps0_2, hostOps0_3, hostOps0_4, hostOps0_5, List.flatten_cons, List.flatten_nil,
    List.append_nil, List.cons_append, List.nil_append]
  after_results; rfl

theorem bias_eq (c : Dev nD) : (V m c main_v12 : S1x128.Idx → EReal)
    = pad S1x128 ![0, 0] ![0, 68] ![0, 0]
        (shapeCast S1x60 (transpose S3x20 [1, 0] (m ((c : Thread nD τ).loc main_arg3)) transposes_S20x3_S3x20_1_0) shapeCasts_S3x20_S1x60)
        (sitofp (F := Ideal) .f32 (constantI S_ 32 0#32)) pads_S1x60_S1x128_000_0680 h_S_ := by
  dsimp only [V, V0]
  simp only [hostOps0, hostOps0_1, hostOps0_2, hostOps0_3, hostOps0_4, hostOps0_5, List.flatten_cons, List.flatten_nil,
    List.append_nil, List.cons_append, List.nil_append]
  after_results; rfl

/-! ## The arrays read at an index -/

/-- Row `256 n + t` of the flattened `x` is position `(n, t)`. -/
theorem xs_apply (c : Dev nD) (n : Fin 64) (t : Fin 256) (f : Fin 3200) :
    (V m c main_v0 : S16384x3200.Idx → EReal) (ix2 (flatRow n t) f) = m ((c : Thread nD τ).loc main_arg0) (ix3 n t f) := by
  rw [xs_eq]
  refine shapeCast_apply _ shapeCasts_S64x256x3200_S16384x3200 (ix2 (flatRow n t) f) (ix3 n t f) ?_
  rw [Shape.rowMajor_val_three, Shape.rowMajor_val_two]
  rfl

/-- Row `256 n + t` of the flattened seeds is the 5 x 3 block of position `(n, t)` read row by row. -/
theorem ss_apply (c : Dev nD) (n : Fin 64) (t : Fin 256) (s : Fin 15) :
    (V m c main_v1 : S16384x15.Idx → EReal) (ix2 (flatRow n t) s)
      = m ((c : Thread nD τ).loc main_arg1) (ix4 n t (seedRow s) (seedCol s)) := by
  rw [ss_eq]
  refine shapeCast_apply _ shapeCasts_S64x256x5x3_S16384x15 (ix2 (flatRow n t) s) (ix4 n t (seedRow s) (seedCol s)) ?_
  rw [Shape.rowMajor_val_four, Shape.rowMajor_val_two]
  have hs := s.isLt
  show ((n.val * 256 + t.val) * 5 + s.val / 3) * 3 + s.val % 3 = (n.val * 256 + t.val) * 15 + s.val
  omega

/-- Column `20 o + k` of the flattened weights at feature `f` is `W[k, o, f]`. -/
theorem wflat_apply (W : S20x3x3215.Idx → EReal) (f : Fin 3215) (o : Fin 3) (k : Fin 20) :
    wflat W (ix2 f (flatLane o k)) = W (ix3 k o f) := by
  unfold wflat
  refine (shapeCast_apply _ shapeCasts_S3215x3x20_S3215x60 (ix2 f (flatLane o k)) (ix3 f o k) ?_).trans ?_
  · rw [Shape.rowMajor_val_three, Shape.rowMajor_val_two]
    show (f.val * 3 + o.val) * 20 + k.val = f.val * 60 + (o.val * 20 + k.val)
    omega
  · exact transpose_apply [2, 1, 0] W transposes_S20x3x3215_S3215x3x20_2_1_0 (ix3 f o k) (ix3 k o f) (fun b => match b with
      | ⟨0, _⟩ => rfl
      | ⟨1, _⟩ => rfl
      | ⟨2, _⟩ => rfl)

/-- The padded weights of `x`, at a column under 60. -/
theorem wx_apply (c : Dev nD) (f : Fin 3200) (o : Fin 3) (k : Fin 20) :
    (V m c main_v7 : S3200x128.Idx → EReal) (ix2 f (padLane o k)) = m ((c : Thread nD τ).loc main_arg2) (ix3 k o (colX f)) := by
  rw [wx_eq]
  refine (truncf_apply (φ := .f32) (ψ := .bf16) _ bitsLt_bf16_f32 (ix2 f (padLane o k))).trans ?_
  refine (pad_apply_of_inside ![0, 0] ![0, 68] ![0, 0] _ _ pads_S3200x60_S3200x128_000_0680 h_S_ (ix2 f (padLane o k))
    (ix2 f (flatLane o k)) (fun a => match a with
      | ⟨0, _⟩ => by show f.val = 0 + f.val * (0 + 1); omega
      | ⟨1, _⟩ => by show o.val * 20 + k.val = 0 + (o.val * 20 + k.val) * (0 + 1); omega)).trans ?_
  refine (extractStridedSlice_apply ![0, 0] _ slices_S3215x60_S3200x60_0_0 (ix2 f (flatLane o k)) (ix2 (colX f) (flatLane o k))
    (fun a => match a with
      | ⟨0, _⟩ => by show f.val = 0 + f.val; omega
      | ⟨1, _⟩ => by show o.val * 20 + k.val = 0 + (o.val * 20 + k.val); omega)).trans ?_
  exact wflat_apply _ (colX f) o k

/-- The padded weights of the seeds, at a column under 60. -/
theorem ws_apply (c : Dev nD) (s : Fin 15) (o : Fin 3) (k : Fin 20) :
    (V m c main_v9 : S15x128.Idx → EReal) (ix2 s (padLane o k)) = m ((c : Thread nD τ).loc main_arg2) (ix3 k o (colS s)) := by
  rw [ws_eq]
  refine (truncf_apply (φ := .f32) (ψ := .bf16) _ bitsLt_bf16_f32 (ix2 s (padLane o k))).trans ?_
  refine (pad_apply_of_inside ![0, 0] ![0, 68] ![0, 0] _ _ pads_S15x60_S15x128_000_0680 h_S_ (ix2 s (padLane o k))
    (ix2 s (flatLane o k)) (fun a => match a with
      | ⟨0, _⟩ => by show s.val = 0 + s.val * (0 + 1); omega
      | ⟨1, _⟩ => by show o.val * 20 + k.val = 0 + (o.val * 20 + k.val) * (0 + 1); omega)).trans ?_
  refine (extractStridedSlice_apply ![3200, 0] _ slices_S3215x60_S15x60_3200_0 (ix2 s (flatLane o k)) (ix2 (colS s) (flatLane o k))
    (fun a => match a with
      | ⟨0, _⟩ => by show 3200 + s.val = 3200 + s.val; rfl
      | ⟨1, _⟩ => by show o.val * 20 + k.val = 0 + (o.val * 20 + k.val); omega)).trans ?_
  exact wflat_apply _ (colS s) o k

/-- The padded bias row, at a column under 60. -/
theorem bias_apply (c : Dev nD) (o : Fin 3) (k : Fin 20) :
    (V m c main_v12 : S1x128.Idx → EReal) (ix2 (0 : Fin 1) (padLane o k)) = m ((c : Thread nD τ).loc main_arg3) (ix2 k o) := by
  rw [bias_eq]
  refine (pad_apply_of_inside ![0, 0] ![0, 68] ![0, 0] _ _ pads_S1x60_S1x128_000_0680 h_S_ (ix2 (0 : Fin 1) (padLane o k))
    (ix2 (0 : Fin 1) (flatLane o k)) (fun a => match a with
      | ⟨0, _⟩ => by show (0 : Nat) = 0 + 0 * (0 + 1); omega
      | ⟨1, _⟩ => by show o.val * 20 + k.val = 0 + (o.val * 20 + k.val) * (0 + 1); omega)).trans ?_
  refine (shapeCast_apply _ shapeCasts_S3x20_S1x60 (ix2 (0 : Fin 1) (flatLane o k)) (ix2 o k) ?_).trans ?_
  · rw [Shape.rowMajor_val_two, Shape.rowMajor_val_two]
    show o.val * 20 + k.val = 0 * 60 + (o.val * 20 + k.val)
    omega
  · exact transpose_apply [1, 0] _ transposes_S20x3_S3x20_1_0 (ix2 o k) (ix2 k o) (fun b => match b with
      | ⟨0, _⟩ => rfl
      | ⟨1, _⟩ => rfl)

end Cert.NodeLinear.Staged

end
-- ==== Proof.KernelValue.lean ====
/-
  The kernel's result array is the stacked linear layers of `Spec.lean`.

  After the region the program keeps the first 60 of the 128 output columns and unflattens
  `[16384, 60]` to `[64, 256, 3, 20]`: entry `[n, t, o, k]` of the result is entry
  `[256 n + t, 20 o + k]` of the region's output.  With the region's output read off its five input
  arrays (`Region.lean`) and those read off the arguments (`Staged.lean`), that entry is
      (sum over c < 3200 of x[n, t, c] * W[k, o, c]) + (sum over s < 15 of seeds[n, t, s / 3, s % 3] * W[k, o, 3200 + s]) + b[k, o],
  which is `lin` term by term: no algebra is left on this side.
-/
import proofs.«124400_j25262997635872_1_alg».proof.Proof.Region
import proofs.«124400_j25262997635872_1_alg».proof.Proof.Staged
import Idealize.ShloMosaic.Lib.Pipeline.FrameSuffix

noncomputable section

open scoped BigOperators

namespace Cert.NodeLinear.Kernel

open Idealize.ShloMosaic Idealize.ShloMosaic.TcCoe Idealize.ShloMosaic.ValueIdx Idealize.SL.Sem Idealize.ShloMosaic.StableHlo
open Cert.KernelIdeal Cert.KernelIdeal.Gen Cert.NodeLinear

variable (m : (ℓ : Loc nD τ sig) → Buf (Elt Ideal) ℓ) (ρ : Dev nD → PrngReg)

/-- The region's output at row `256 n + t`, column `20 o + k`. -/
theorem region_lin (c : Dev nD) (n : Fin 64) (t : Fin 256) (o : Fin 3) (k : Fin 20) :
    Region.regionOut (V m c main_v0) (V m c main_v1) (V m c main_v7) (V m c main_v9) (V m c main_v12) (ix2 (flatRow n t) (padLane o k))
      = lin (m ((c : Thread nD τ).loc main_arg0)) (m ((c : Thread nD τ).loc main_arg1)) (m ((c : Thread nD τ).loc main_arg2))
          (m ((c : Thread nD τ).loc main_arg3)) n t o k := by
  exact Region.regionOut_lin _ _ _ _ _ _ _ _ _ n t o k (Staged.xs_apply m c n t) (Staged.ss_apply m c n t)
    (fun f => Staged.wx_apply m c f o k) (fun s => Staged.ws_apply m c s o k) (Staged.bias_apply m c o k)

/-- What the program's last lines leave in the result buffer. -/
theorem tail_eq (c : Dev nD) :
    (Pipeline.afterTail₀ cfgs (dats m) 0 (V0 m) [hostOps1] c main_v15 : S64x256x3x20.Idx → EReal)
      = linOut (m ((c : Thread nD τ).loc main_arg0)) (m ((c : Thread nD τ).loc main_arg1)) (m ((c : Thread nD τ).loc main_arg2))
          (m ((c : Thread nD τ).loc main_arg3)) := by
  have hfin : (Pipeline.withArrays (cfgs 0).spec c (V0 m c) (fun w => (dats m 0 c).arrAt w (cfgs 0).N) (Proc.devRef .tc main_v13) : S16384x128.Idx → EReal)
      = Region.regionOut (V m c main_v0) (V m c main_v1) (V m c main_v7) (V m c main_v9) (V m c main_v12) :=
    (Pipeline.withArrays_arr spec0 launch0.win.arr_inj c _ _ 5).trans (Region.final m c)
  unfold Pipeline.afterTail₀
  simp only [hostOps1, List.flatten_cons, List.flatten_nil, List.append_nil]
  after_results
  show shapeCast S64x256x3x20 (extractStridedSlice S16384x60 ![0, 0]
      (Pipeline.withArrays (cfgs 0).spec c (V0 m c) (fun w => (dats m 0 c).arrAt w (cfgs 0).N) (Proc.devRef .tc main_v13) : S16384x128.Idx → EReal)
      slices_S16384x128_S16384x60_0_0) shapeCasts_S16384x60_S64x256x3x20 = _
  rw [hfin]
  funext i
  obtain ⟨n, t, o, k, rfl⟩ : ∃ (n : Fin 64) (t : Fin 256) (o : Fin 3) (k : Fin 20), i = ix4 n t o k :=
    ⟨i 0, i 1, i 2, i 3, eq_ix4 i⟩
  refine (shapeCast_apply _ shapeCasts_S16384x60_S64x256x3x20 (ix4 n t o k) (ix2 (flatRow n t) (flatLane o k)) ?_).trans ?_
  · rw [Shape.rowMajor_val_two, Shape.rowMajor_val_four]
    show (n.val * 256 + t.val) * 60 + (o.val * 20 + k.val) = ((n.val * 256 + t.val) * 3 + o.val) * 20 + k.val
    omega
  refine (extractStridedSlice_apply ![0, 0] _ slices_S16384x128_S16384x60_0_0 (ix2 (flatRow n t) (flatLane o k))
    (ix2 (flatRow n t) (padLane o k)) (fun a => match a with
      | ⟨0, _⟩ => by show n.val * 256 + t.val = 0 + (n.val * 256 + t.val); omega
      | ⟨1, _⟩ => by show o.val * 20 + k.val = 0 + (o.val * 20 + k.val); omega)).trans ?_
  exact region_lin m c n t o k

/-- The kernel program's run: the result buffer ends at the stacked linear layers of the arguments, which end unchanged. -/
theorem run : θ_run defs (onTc (τ := τ) (main (F := Ideal))) ⟨m, fun _ => 0, ρ⟩ (fun r => ∀ c : Dev nD,
      r.2.mem ((c.tc : Thread nD τ).loc main_v15) = linOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.NodeLinear.Kernel

end
-- ==== Proof.lean ====
/-
  Twenty cloned linear layers applied at every position, fused into one product: the kernel against its reference,
  over the extended reals.

  Both programs compute, at position `(n, t)`, output `o`, layer `k`,
      (sum over the 3215 features c of feature[n, t, c] * W[k, o, c]) + b[k, o],
  where the features of a position are its 3200 entries of `x` followed by its 15 seed entries.  The reference
  joins the features and sums the 3215 products in one contraction.  The kernel flattens the positions to 16384
  rows, lays the weights out as `[3215, 60]` (column `20 o + k`), cuts them at feature 3200, pads the 60 columns to
  128, and on each of 16 blocks of 1024 rows adds the product with the weights of `x`, the product with the weights
  of the seeds and the bias row; the 60 true columns are then cut out and unflattened.  The two differ in the
  grouping of one sum (3215 terms against 3200 + 15) and in the order of the two factors of each product; addition
  and multiplication of extended reals are commutative and addition associative, so the results are equal entry by
  entry for all inputs, finite or not: the precondition is not used.  The narrowing of the kernel's operands to a
  16-bit format is the identity over the extended reals, and the ideal pass rewrote nothing, so the kernel's
  idealization is its own text.

  Modules: `Spec` (the function and the split of the sum), `RefValue` (the reference is that function), `Payload`
  (one grid point's entries), `Region` (the region's output array), `Staged` (the region's input arrays in terms
  of the arguments), `KernelValue` (the kernel's result is that function), `LibDot2` (a matrix product read at an
  index as a plain sum).
-/
import proofs.«124400_j25262997635872_1_alg».proof.Defs
import proofs.«124400_j25262997635872_1_alg».proof.Proof.Gen.Kernel
import proofs.«124400_j25262997635872_1_alg».proof.Proof.Gen.Kernel.Frame
import proofs.«124400_j25262997635872_1_alg».proof.Proof.Gen.KernelIdeal
import proofs.«124400_j25262997635872_1_alg».proof.Proof.Gen.KernelIdeal.Frame
import proofs.«124400_j25262997635872_1_alg».proof.Proof.Gen.ReferenceIdeal
import proofs.«124400_j25262997635872_1_alg».proof.Proof.Gen.ReferenceIdeal.Run
import proofs.«124400_j25262997635872_1_alg».proof.Proof.Gen.ReferenceIdeal.Read
import proofs.«124400_j25262997635872_1_alg».proof.Proof.Gen.Pre_finite_inputs
import proofs.«124400_j25262997635872_1_alg».proof.Proof.RefValue
import proofs.«124400_j25262997635872_1_alg».proof.Proof.KernelValue
import Idealize.ShloMosaic.Adequacy
import Idealize.ShloMosaic.Init

noncomputable section

namespace Cert.Proof

open Idealize.ShloMosaic Idealize.ShloMosaic.TcCoe Idealize.SL.Sem Cert.NodeLinear

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the four arguments both programs end with the stacked linear layers of those
    arguments in their result buffers. -/
theorem algebraic : Cert.algebraic_KernelIdeal_ReferenceIdeal := by
  intro m ρ m' ρ' _ hagree
  refine ⟨fun c => linOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.NodeLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.NodeLinear.Ref.val_eq_linOut _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
